-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x6x3 : Shape := ⟨3, ![262144, 6, 3]⟩
abbrev S1800x72 : Shape := ⟨2, ![1800, 72]⟩
abbrev S1800 : Shape := ⟨1, ![1800]⟩
abbrev S_ : Shape := ⟨0, ![]⟩

class Facts : Prop where
  bcast_S_S262144x6x3 : S_.BroadcastsInDim S262144x6x3 (![] : Fin 0 → Fin S262144x6x3.rank)
  reducesTo_S262144x6x3_S_d0_1_2 : S262144x6x3.ReducesTo [0, 1, 2] S_
  h_S_ : 0 < S_.numel
  bcast_S_S1800x72 : S_.BroadcastsInDim S1800x72 (![] : Fin 0 → Fin S1800x72.rank)
  reducesTo_S1800x72_S_d0_1 : S1800x72.ReducesTo [0, 1] S_
  bcast_S_S1800 : S_.BroadcastsInDim S1800 (![] : Fin 0 → Fin S1800.rank)
  reducesTo_S1800_S_d0 : S1800.ReducesTo [0] S_

variable [Facts]

def fn {F : FTy → Type} [FloatOps F] (main_arg0 : FVec F S262144x6x3 .f32) (main_arg1 : FVec F S1800x72 .f32) (main_arg2 : FVec F S1800 .f32) : IVec S_ 1 :=
  let main_v0 : FVec F S262144x6x3 .f32 := Host.absf main_arg0
  let main_cst : FVec F S_ .f32 := constant S_ .f32 0x7F800000#32
  let main_v1 : FVec F S262144x6x3 .f32 := broadcastInDim S262144x6x3 ![] bcast_S_S262144x6x3 main_cst
  let main_v2 : IVec S262144x6x3 1 := cmpf .olt main_v0 main_v1
  let main_c : IVec S_ 1 := constantI S_ 1 1#1
  let main_v3 : IVec S_ 1 := (fun x v => Host.reduce IntOp.andi x v reducesTo_S262144x6x3_S_d0_1_2 h_S_) main_v2 main_c
  let main_v4 : FVec F S1800x72 .f32 := Host.absf main_arg1
  let main_cst_0 : FVec F S_ .f32 := constant S_ .f32 0x7F800000#32
  let main_v5 : FVec F S1800x72 .f32 := broadcastInDim S1800x72 ![] bcast_S_S1800x72 main_cst_0
  let main_v6 : IVec S1800x72 1 := cmpf .olt main_v4 main_v5
  let main_c_1 : IVec S_ 1 := constantI S_ 1 1#1
  let main_v7 : IVec S_ 1 := (fun x v => Host.reduce IntOp.andi x v reducesTo_S1800x72_S_d0_1 h_S_) main_v6 main_c_1
  let main_v8 : IVec S_ 1 := andi main_v3 main_v7
  let main_v9 : FVec F S1800 .f32 := Host.absf main_arg2
  let main_cst_2 : FVec F S_ .f32 := constant S_ .f32 0x7F800000#32
  let main_v10 : FVec F S1800 .f32 := broadcastInDim S1800 ![] bcast_S_S1800 main_cst_2
  let main_v11 : IVec S1800 1 := cmpf .olt main_v9 main_v10
  let main_c_3 : IVec S_ 1 := constantI S_ 1 1#1
  let main_v12 : IVec S_ 1 := (fun x v => Host.reduce IntOp.andi x v reducesTo_S1800_S_d0 h_S_) main_v11 main_c_3
  let main_v13 : IVec S_ 1 := andi main_v8 main_v12
  main_v13
-- ==== Kernel.lean ====
abbrev S262144x6x3 : Shape := ⟨3, ![262144, 6, 3]⟩
abbrev S1800x72 : Shape := ⟨2, ![1800, 72]⟩
abbrev S1800 : Shape := ⟨1, ![1800]⟩
abbrev S65536x72 : Shape := ⟨2, ![65536, 72]⟩
abbrev S1x1800 : Shape := ⟨2, ![1, 1800]⟩
abbrev S65536x1800 : Shape := ⟨2, ![65536, 1800]⟩
abbrev S1024x72 : Shape := ⟨2, ![1024, 72]⟩
abbrev S1024x1800 : Shape := ⟨2, ![1024, 1800]⟩
abbrev S11796480x5x2 : Shape := ⟨3, ![11796480, 5, 2]⟩

abbrev nBuf : Space → Nat
  | .hbm => 7
  | .vmem => 6
  | .smem => 0
  | _ => 0

abbrev bufTy : (tb : Table) → Fin (tcTables nBuf tb) → BufTy
  | .hbm, ⟨0, _⟩ => ⟨S262144x6x3, .f32⟩
  | .hbm, ⟨1, _⟩ => ⟨S1800x72, .f32⟩
  | .hbm, ⟨2, _⟩ => ⟨S1800, .f32⟩
  | .hbm, ⟨3, _⟩ => ⟨S65536x72, .f32⟩
  | .hbm, ⟨4, _⟩ => ⟨S1x1800, .f32⟩
  | .hbm, ⟨5, _⟩ => ⟨S65536x1800, .f32⟩
  | .hbm, ⟨6, _⟩ => ⟨S11796480x5x2, .f32⟩
  | .local _ .vmem, ⟨0, _⟩ => ⟨S1024x72, .f32⟩
  | .local _ .vmem, ⟨1, _⟩ => ⟨S1024x72, .f32⟩
  | .local _ .vmem, ⟨2, _⟩ => ⟨S1800x72, .f32⟩
  | .local _ .vmem, ⟨3, _⟩ => ⟨S1x1800, .f32⟩
  | .local _ .vmem, ⟨4, _⟩ => ⟨S1024x1800, .f32⟩
  | .local _ .vmem, ⟨5, _⟩ => ⟨S1024x1800, .f32⟩
  | _, _ => ⟨S262144x6x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x72 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1800x72 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S262144x6x3_S65536x72 : S262144x6x3.ShapeCasts S65536x72
  shapeCasts_S1800_S1x1800 : S1800.ShapeCasts S1x1800
  inb_S1024x72_S1024x72_0_0 : ∀ a, (![0, 0] : Fin 2 → Nat) a + S1024x72.size a ≤ S1024x72.size a
  h_S1024x72 : 0 < S1024x72.numel
  shapeCasts_S1024x72_S1024x72 : S1024x72.ShapeCasts S1024x72
  bitsLt_bf16_f32 : FTy.bits .bf16 < FTy.bits .f32
  inb_S1800x72_S1800x72_0_0 : ∀ a, (![0, 0] : Fin 2 → Nat) a + S1800x72.size a ≤ S1800x72.size a
  h_S1800x72 : 0 < S1800x72.numel
  inb_S1x1800_S1x1800_0_0 : ∀ a, (![0, 0] : Fin 2 → Nat) a + S1x1800.size a ≤ S1x1800.size a
  h_S1x1800 : 0 < S1x1800.numel
  shapeCasts_S1x1800_S1x1800 : S1x1800.ShapeCasts S1x1800
  broadcasts_S1x1800_S1024x1800 : S1x1800.Broadcasts S1024x1800
  inb_S1024x1800_S1024x1800_0_0 : ∀ a, (![0, 0] : Fin 2 → Nat) a + S1024x1800.size a ≤ S1024x1800.size a
  h_S1024x1800 : 0 < S1024x1800.numel
  shapeCasts_S65536x1800_S11796480x5x2 : S65536x1800.ShapeCasts S11796480x5x2
  dot_S1024x72_S1800x72_S1024x1800_1_1_0_0_n_n_wf : DotDims.WF S1024x72 S1800x72 S1024x1800 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x72.size a ≤ S65536x72.size a
  hwx0_0 : ∀ i : grid0.Coords, EltTy.bits .f32 = 32 ∨ (Rect.block (s := S65536x72) S1024x72.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1800x72.size a ≤ S1800x72.size a
  hwx0_1 : ∀ i : grid0.Coords, EltTy.bits .f32 = 32 ∨ (Rect.block (s := S1800x72) S1800x72.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1800.size a ≤ S1x1800.size a
  hwx0_2 : ∀ i : grid0.Coords, EltTy.bits .f32 = 32 ∨ (Rect.block (s := S1x1800) S1x1800.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1800.size a ≤ S65536x1800.size a
  hwx0_3 : ∀ i : grid0.Coords, EltTy.bits .f32 = 32 ∨ (Rect.block (s := S65536x1800) S1024x1800.size (cc0_transform_3 i) (hinb0_3 i)).WholeWords (EltTy.packing .f32)

variable [Facts₀]

def dot_S1024x72_S1800x72_S1024x1800_1_1_0_0_n_n : DotDims S1024x72 S1800x72 S1024x1800 where
  lhsContracting := [1]
  rhsContracting := [1]
  lhsNonContracting := [0]
  rhsNonContracting := [0]
  lhsBatch := []
  rhsBatch := []
  wf := dot_S1024x72_S1800x72_S1024x1800_1_1_0_0_n_n_wf

abbrev win0_0 : Pipeline.Window sig grid0 :=
  Pipeline.Window.ofSpec (Memref.whole main_v0) S1024x72.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1800x72.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1800.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1800.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x6x3 : Shape := ⟨3, ![262144, 6, 3]⟩
abbrev S1800x72 : Shape := ⟨2, ![1800, 72]⟩
abbrev S1800 : Shape := ⟨1, ![1800]⟩
abbrev S65536x72 : Shape := ⟨2, ![65536, 72]⟩
abbrev S65536x1800 : Shape := ⟨2, ![65536, 1800]⟩
abbrev S1x1800 : Shape := ⟨2, ![1, 1800]⟩
abbrev S_ : Shape := ⟨0, ![]⟩
abbrev S11796480x5x2 : Shape := ⟨3, ![11796480, 5, 2]⟩

abbrev nBuf : Space → Nat
  | .hbm => 12
  | .vmem => 0
  | .smem => 0
  | _ => 0

abbrev bufTy : (tb : Table) → Fin (tcTables nBuf tb) → BufTy
  | .hbm, ⟨0, _⟩ => ⟨S262144x6x3, .f32⟩
  | .hbm, ⟨1, _⟩ => ⟨S1800x72, .f32⟩
  | .hbm, ⟨2, _⟩ => ⟨S1800, .f32⟩
  | .hbm, ⟨3, _⟩ => ⟨S65536x72, .f32⟩
  | .hbm, ⟨4, _⟩ => ⟨S65536x1800, .f32⟩
  | .hbm, ⟨5, _⟩ => ⟨S1x1800, .f32⟩
  | .hbm, ⟨6, _⟩ => ⟨S65536x1800, .f32⟩
  | .hbm, ⟨7, _⟩ => ⟨S65536x1800, .f32⟩
  | .hbm, ⟨8, _⟩ => ⟨S_, .f32⟩
  | .hbm, ⟨9, _⟩ => ⟨S65536x1800, .f32⟩
  | .hbm, ⟨10, _⟩ => ⟨S65536x1800, .f32⟩
  | .hbm, ⟨11, _⟩ => ⟨S11796480x5x2, .f32⟩
  | _, _ => ⟨S262144x6x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  shapeCasts_S262144x6x3_S65536x72 : S262144x6x3.ShapeCasts S65536x72
  bcast_S1800_S1x1800_1 : S1800.BroadcastsInDim S1x1800 (![1] : Fin 1 → Fin S1x1800.rank)
  bcast_S1x1800_S65536x1800_0_1 : S1x1800.BroadcastsInDim S65536x1800 (![0, 1] : Fin 2 → Fin S65536x1800.rank)
  bcast_S_S65536x1800 : S_.BroadcastsInDim S65536x1800 (![] : Fin 0 → Fin S65536x1800.rank)
  shapeCasts_S65536x1800_S11796480x5x2 : S65536x1800.ShapeCasts S11796480x5x2
  dot_S65536x72_S1800x72_S65536x1800_1_1_0_0_n_n_wf : DotDims.WF S65536x72 S1800x72 S65536x1800 [1] [1] [0] [0] [] []

variable [Facts₀]

def dot_S65536x72_S1800x72_S65536x1800_1_1_0_0_n_n : DotDims S65536x72 S1800x72 S65536x1800 where
  lhsContracting := [1]
  rhsContracting := [1]
  lhsNonContracting := [0]
  rhsNonContracting := [0]
  lhsBatch := []
  rhsBatch := []
  wf := dot_S65536x72_S1800x72_S65536x1800_1_1_0_0_n_n_wf

class Facts : Prop extends Facts₀ where

variable [Facts]
-- ==== Proof.Spec.lean ====
/-
  The function both programs compute, before the final row-major re-view as [11796480, 5, 2].

  Four consecutive rows of the [262144, 6, 3] input, read row-major, are one row of 72 features; there are 65536 such
  rows. Output entry (r, o) of the [65536, 1800] array is the affine map of feature row r by weight row o, cut off at
  zero:

      max ( ∑ k < 72, flat (r, k) · w (o, k) + bias o , 0 ).

  Over the extended reals this needs no side condition: it is read off both programs term by term, and no law of
  arithmetic beyond the definition of a finite sum is used, so the inputs' finiteness is never opened.
-/
import Idealize.ShloMosaic.PureOps.Ideal
import Idealize.ShloMosaic.Lib.ValueIdx

noncomputable section

namespace Cert.Spec

open Idealize.ShloMosaic Idealize.ShloMosaic.ValueIdx

/-- Entry (r, o): the inner product over the 72 features of feature row r with weight row o, plus bias o, cut off
    below at zero. -/
def reluAffine (flat : FVec Ideal ⟨2, ![65536, 72]⟩ .f32) (w : FVec Ideal ⟨2, ![1800, 72]⟩ .f32)
    (bias : Fin 1800 → EReal) : FVec Ideal ⟨2, ![65536, 1800]⟩ .f32 :=
  fun i => max ((∑ k : Fin 72, flat (ix2 (i 0) k) * w (ix2 (i 1) k)) + bias (i 1)) 0

end Cert.Spec

end
-- ==== Proof.RefStage.lean ====
/-
  The reference before its final re-view: the [65536, 1800] array it holds after the cut-off at zero is the affine
  map of the feature rows by the weight rows plus the bias, cut off at zero, entry by entry — read off its stages one at
  a time: the product of the [65536, 72] re-view of the input with the transposed weights as a sum over the 72
  features, the bias spread first to a 1 × 1800 row and then over all rows, the sum, the maximum with the zero splat.
-/
import proofs.«120178_j60644938219640_1_alg».proof.Proof.Gen.ReferenceIdeal.Read
import proofs.«120178_j60644938219640_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The stage after the maximum with zero is the specification, of the re-viewed input, the weights and the bias. -/
theorem relu_stage (x0 : (⟨S262144x6x3, .f32⟩ : BufTy).Contents (Elt Ideal)) (x1 : (⟨S1800x72, .f32⟩ : BufTy).Contents (Elt Ideal))
    (x2 : (⟨S1800, .f32⟩ : BufTy).Contents (Elt Ideal)) :
    val_main_v5 (F := Ideal) x0 x1 x2
      = Cert.Spec.reluAffine (val_main_v0 (F := Ideal) x0) x1 (fun o => x2 (ix1 o)) := by
  funext i
  have e1 : ∀ k : Fin 72, lidx_main_v1 i k = ix2 (i 0) k := fun k => funext fun a => Fin.ext (by
    match a with
    | ⟨0, _⟩ => rfl
    | ⟨1, _⟩ => rfl)
  have e2 : ∀ k : Fin 72, ridx_main_v1 i k = ix2 (i 1) k := fun k => funext fun a => Fin.ext (by
    match a with
    | ⟨0, _⟩ => rfl
    | ⟨1, _⟩ => rfl)
  have e3 : idx_main_v2 (idx_main_v3 i) = ix1 (i 1) := funext fun a => Fin.ext (by
    match a with
    | ⟨0, _⟩ => rfl)
  rw [val_main_v5_apply, val_main_v4_apply, val_main_v1_apply, val_main_v3_apply, val_main_v2_apply,
    val_main_call0_v0_apply, val_main_call0_cst_apply]
  unfold Cert.Spec.reluAffine
  simp only [e1, e2, e3, Ideal.maximumf_def, Ideal.addf_def, Ideal.ofBits_def, Ideal.ofBits_zero_f32]
  rfl

end Cert.ReferenceIdeal.RefValue

end
-- ==== Proof.Payload.lean ====
/-
  The kernel body's one stored value, read at an entry.

  At a grid point the body holds a block of 1024 feature rows, all 1800 weight rows and the bias as a 1 × 1800 row. It
  narrows features and weights to bf16 (no change over the extended reals), contracts the feature axis of both on the
  matrix unit into a zero accumulator, adds the bias row to every row and takes the maximum with zero. So entry (p, q)
  of the stored block is  max ( ∑ k < 72, x (p, k) · w (q, k) + b (0, q) , 0 ).
-/
import proofs.«120178_j60644938219640_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The contraction's operand indices: output entry (p, q) and feature k meet at (p, k) and (q, k) -/

theorem lhs_axis0 (i : S1024x1800.Idx) (q : dot_S1024x72_S1800x72_S1024x1800_1_1_0_0_n_n.contr.Idx) :
    (dot_S1024x72_S1800x72_S1024x1800_1_1_0_0_n_n.lhsIdx i q 0).val = (i 0).val := by
  unfold DotDims.lhsIdx
  rw [dif_neg (show ¬(0 : Fin S1024x72.rank) ∈ dot_S1024x72_S1800x72_S1024x1800_1_1_0_0_n_n.lhsBatch by decide), dif_pos (show (0 : Fin S1024x72.rank) ∈ dot_S1024x72_S1800x72_S1024x1800_1_1_0_0_n_n.lhsNonContracting by decide)]
  rfl
theorem lhs_axis1 (i : S1024x1800.Idx) (q : dot_S1024x72_S1800x72_S1024x1800_1_1_0_0_n_n.contr.Idx) :
    (dot_S1024x72_S1800x72_S1024x1800_1_1_0_0_n_n.lhsIdx i q 1).val = (q ⟨0, by decide⟩).val :=
  dot_S1024x72_S1800x72_S1024x1800_1_1_0_0_n_n.lhsIdx_val_of_single rfl i q
theorem rhs_axis0 (i : S1024x1800.Idx) (q : dot_S1024x72_S1800x72_S1024x1800_1_1_0_0_n_n.contr.Idx) :
    (dot_S1024x72_S1800x72_S1024x1800_1_1_0_0_n_n.rhsIdx i q 0).val = (i 1).val := by
  unfold DotDims.rhsIdx
  rw [dif_neg (show ¬(0 : Fin S1800x72.rank) ∈ dot_S1024x72_S1800x72_S1024x1800_1_1_0_0_n_n.rhsBatch by decide), dif_pos (show (0 : Fin S1800x72.rank) ∈ dot_S1024x72_S1800x72_S1024x1800_1_1_0_0_n_n.rhsNonContracting by decide)]
  rfl
theorem rhs_axis1 (i : S1024x1800.Idx) (q : dot_S1024x72_S1800x72_S1024x1800_1_1_0_0_n_n.contr.Idx) :
    (dot_S1024x72_S1800x72_S1024x1800_1_1_0_0_n_n.rhsIdx i q 1).val = (q ⟨0, by decide⟩).val :=
  dot_S1024x72_S1800x72_S1024x1800_1_1_0_0_n_n.rhsIdx_val_of_single rfl i q

/-- The matrix unit's product into the zero accumulator, at entry (p, q): the sum over the 72 features of the left
    operand at (p, k) times the right operand at (q, k). -/
theorem matmul_at (l : FVec Ideal S1024x72 .bf16) (r : FVec Ideal S1800x72 .bf16) (p : Fin 1024) (q : Fin 1800) :
    matmul dot_S1024x72_S1800x72_S1024x1800_1_1_0_0_n_n none l r (constant S1024x1800 .f32 0x00000000#32) (ix2 p q)
      = ∑ k : Fin 72, l (ix2 p k) * r (ix2 q k) := by
  simp only [matmul]
  rw [Ideal.matmul_constant_zero_apply, ← Equiv.sum_comp (ValueIdx.contrEquiv1 dot_S1024x72_S1800x72_S1024x1800_1_1_0_0_n_n 72 rfl rfl).symm]
  refine Finset.sum_congr rfl fun k _ => ?_
  have hk := ValueIdx.contrEquiv1_symm_val dot_S1024x72_S1800x72_S1024x1800_1_1_0_0_n_n 72 rfl rfl k
  have el : dot_S1024x72_S1800x72_S1024x1800_1_1_0_0_n_n.lhsIdx (ix2 p q) ((ValueIdx.contrEquiv1 dot_S1024x72_S1800x72_S1024x1800_1_1_0_0_n_n 72 rfl rfl).symm k) = ix2 p k := funext fun a => Fin.ext (by
    match a with
    | ⟨0, _⟩ => exact lhs_axis0 _ _
    | ⟨1, _⟩ => exact (lhs_axis1 _ _).trans hk)
  have er : dot_S1024x72_S1800x72_S1024x1800_1_1_0_0_n_n.rhsIdx (ix2 p q) ((ValueIdx.contrEquiv1 dot_S1024x72_S1800x72_S1024x1800_1_1_0_0_n_n 72 rfl rfl).symm k) = ix2 q k := funext fun a => Fin.ext (by
    match a with
    | ⟨0, _⟩ => exact rhs_axis0 _ _
    | ⟨1, _⟩ => exact (rhs_axis1 _ _).trans hk)
  rw [el, er]

/-- The bias row spread over the block's 1024 rows: entry (p, q) is the row's entry (0, q). -/
theorem bias_at (b : FVec Ideal S1x1800 .f32) (p : Fin 1024) (q : Fin 1800) :
    broadcastTo S1024x1800 (shapeCast S1x1800 b shapeCasts_S1x1800_S1x1800) broadcasts_S1x1800_S1024x1800 (ix2 p q)
      = b (ix2 0 q) := by
  rw [shapeCast_self]
  exact broadcastTo_apply b broadcasts_S1x1800_S1024x1800 (ix2 p q) (ix2 0 q) (fun a => match a with
    | ⟨0, _⟩ => by show 0 = if (1 : Nat) = 1 then 0 else _; rw [if_pos rfl]
    | ⟨1, _⟩ => by show q.val = if (1800 : Nat) = 1 then 0 else q.val; rw [if_neg (by decide)])

/-- The stored block at entry (p, q). -/
theorem pay_at (x : Vec Ideal S1024x72 .f32) (w : Vec Ideal S1800x72 .f32) (b : Vec Ideal S1x1800 .f32)
    (p : Fin 1024) (q : Fin 1800) :
    k0_pay1 (F := Ideal) x w b (ix2 p q)
      = max ((∑ k : Fin 72, x (ix2 p k) * w (ix2 q k)) + b (ix2 0 q)) 0 := by
  unfold k0_pay1
  rw [shapeCast_self]
  show max (matmul (F := Ideal) dot_S1024x72_S1800x72_S1024x1800_1_1_0_0_n_n none (truncf (F := Ideal) .bf16 x bitsLt_bf16_f32) (truncf (F := Ideal) .bf16 w bitsLt_bf16_f32) (constant (F := Ideal) S1024x1800 .f32 0x00000000#32) (ix2 p q)
      + broadcastTo S1024x1800 (shapeCast S1x1800 b shapeCasts_S1x1800_S1x1800) broadcasts_S1x1800_S1024x1800 (ix2 p q))
      (Ideal.ofBits .f32 0x00000000#32) = _
  rw [matmul_at, bias_at, Ideal.ofBits_zero_f32]
  rfl

end Cert.KernelIdeal.Body

end
-- ==== Proof.Blocks.lean ====
/-
  From the kernel's blocks to its output array.

  The grid has 64 points. Point t holds feature rows 1024·t … 1024·t + 1023 of the [65536, 72] re-view of the input,
  the whole weight matrix and the whole 1 × 1800 bias row, and writes back rows 1024·t … 1024·t + 1023 of the
  [65536, 1800] output. Entry (p, q) of what it writes is the specification at row 1024·t + p, column q; the 64 row
  blocks tile the output, so after the last point the output array is the specification everywhere.
-/
import proofs.«120178_j60644938219640_1_alg».proof.Proof.Gen.KernelIdeal.Frame
import proofs.«120178_j60644938219640_1_alg».proof.Proof.Payload
import proofs.«120178_j60644938219640_1_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-! ## One block, over plain arrays -/

/-- A block of the stored value is the specification read through the block's placement: if the feature block is the
    feature array read at rows `e` sends the block's rows to, the weights and the bias row are whole, and `e` keeps
    columns, then entry j of the stored block is the specification at `e j`. -/
theorem block_spec (flat : FVec Ideal S65536x72 .f32) (w : FVec Ideal S1800x72 .f32) (b2 : FVec Ideal S1x1800 .f32)
    (xb : Vec Ideal S1024x72 .f32) (wb : Vec Ideal S1800x72 .f32) (bb : Vec Ideal S1x1800 .f32)
    (e : S1024x1800.Idx → S65536x1800.Idx) (ex : S1024x72.Idx → S65536x72.Idx)
    (hx : ∀ y, xb y = flat (ex y)) (hw : wb = w) (hb : bb = b2)
    (hrow : ∀ (j : S1024x1800.Idx) (k : Fin 72), (ex (ix2 (j 0) k) 0).val = (e j 0).val)
    (hfeat : ∀ y, (ex y 1).val = (y 1).val)
    (hcol : ∀ j, (e j 1).val = (j 1).val) :
    k0_pay1 (F := Ideal) xb wb bb = fun j => Cert.Spec.reluAffine flat w (fun o => b2 (ix2 0 o)) (e j) := by
  subst hw hb
  funext j
  obtain ⟨p, q, rfl⟩ : ∃ (p : Fin 1024) (q : Fin 1800), j = ix2 p q := ⟨j 0, j 1, eq_ix2 j⟩
  rw [Body.pay_at]
  unfold Cert.Spec.reluAffine
  have hq : e (ix2 p q) 1 = q := Fin.ext (hcol (ix2 p q))
  have hxk : ∀ k : Fin 72, xb (ix2 p k) = flat (ix2 (e (ix2 p q) 0) k) := fun k => by
    rw [hx]
    refine congrArg flat (funext fun a => Fin.ext ?_)
    match a with
    | ⟨0, _⟩ => exact hrow (ix2 p q) k
    | ⟨1, _⟩ => exact hfeat (ix2 p k)
  simp only [hxk, hq]

/-! ## The printed index maps, decided over the 64 grid points -/

/-- Feature blocks and output blocks move down one block of rows per point; weights and bias stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## What a point writes back -/

/-- The specification of the arrays as the region finds them: the re-viewed input, the weights, the bias row. -/
abbrev outSpec (c : Dev nD) : S65536x1800.Idx → EReal :=
  Cert.Spec.reluAffine (V m c main_v0 : S65536x72.Idx → EReal) (V m c main_arg1 : S1800x72.Idx → EReal)
    (fun o => (V m c main_v1 : S1x1800.Idx → EReal) (ix2 0 o))

/-- Point t writes back block t of the specification. -/
theorem flushed_eq (c : Dev nD) (t : Fin cfg0.N) :
    (dats m 0 c).flushed 3 t = ((cfg0.win 3).blk t).view.read (Elt Ideal) (outSpec m c) := by
  show (cfg0.win 3).cut (grid0.coords t) ((dats m 0 c).after 3 t) = _
  rw [after0_3]
  unfold out0_3
  rw [View.canon_unit_zero hz]
  simp only [View.ld_unit_zero (S := S1024x72) hz, View.ld_unit_zero (S := S1800x72) hz, View.ld_unit_zero (S := S1x1800) hz]
  obtain ⟨a0, a1, b0, b1, c0, c1, d0, d1⟩ := idx_facts t
  have hblk := block_spec (V m c main_v0 : S65536x72.Idx → EReal) (V m c main_arg1 : S1800x72.Idx → EReal)
    (V m c main_v1 : S1x1800.Idx → EReal) (iblk m c 0 t) (iblk m c 1 t) (iblk m c 2 t)
    (fun j => ((cfg0.win 3).blk t).view.emb j) (fun y => ((cfg0.win 0).blk t).view.emb y) (fun y => rfl)
    (by
      funext y
      show V m c main_arg1 (((cfg0.win 1).blk t).view.emb y) = V m c main_arg1 y
      refine congrArg _ (funext fun a => Fin.ext ?_)
      match a with
      | ⟨0, _⟩ => show win0_1.index t (0 : Fin 2) * 1800 + 1 * (y 0).val = (y 0).val; omega
      | ⟨1, _⟩ => show win0_1.index t (1 : Fin 2) * 72 + 1 * (y 1).val = (y 1).val; omega)
    (by
      funext y
      show V m c main_v1 (((cfg0.win 2).blk t).view.emb y) = V m c main_v1 y
      refine congrArg _ (funext fun a => Fin.ext ?_)
      match a with
      | ⟨0, _⟩ => show win0_2.index t (0 : Fin 2) * 1 + 1 * (y 0).val = (y 0).val; omega
      | ⟨1, _⟩ => show win0_2.index t (1 : Fin 2) * 1800 + 1 * (y 1).val = (y 1).val; omega)
    (fun j k => by
      show win0_0.index t (0 : Fin 2) * 1024 + 1 * (j 0).val = win0_3.index t (0 : Fin 2) * 1024 + 1 * (j 0).val
      omega)
    (fun y => by
      show win0_0.index t (1 : Fin 2) * 72 + 1 * (y 1).val = (y 1).val
      omega)
    (fun j => by
      show win0_3.index t (1 : Fin 2) * 1800 + 1 * (j 1).val = (j 1).val
      omega)
  funext j
  show k0_pay1 (F := Ideal) (iblk m c 0 t) (iblk m c 1 t) (iblk m c 2 t) j = outSpec m c (((cfg0.win 3).blk t).view.emb j)
  exact congrFun hblk j

/-! ## The blocks tile the output -/

/-- An entry is in point t's block iff each coordinate is in the block's range on its axis. -/
theorem mem_blk (t : Fin cfg0.N) (i : S65536x1800.Idx) :
    i ∈ ((cfg0.win 3).blk t).view.set ↔ ∀ a : Fin 2, win0_3.index t a * S1024x1800.size a ≤ (i a).val ∧ (i a).val < win0_3.index t a * S1024x1800.size a + S1024x1800.size a := by
  show i ∈ ((View.whole main_v2).slice (win0_3.rect t)).set ↔ _
  rw [View.set_slice_whole, Rect.mem_set_unit]
  exact Iff.rfl

/-- Row r of the output is written by point r / 1024. -/
theorem cover (i : S65536x1800.Idx) :
    ∃ t : Fin cfg0.N, (cfg0.win 3).flush t = true ∧ i ∈ ((cfg0.win 3).blk t).view.set := by
  have hi0 : (i 0).val < 65536 := (i 0).isLt
  have hi1 : (i 1).val < 1800 := (i 1).isLt
  have hN : cfg0.N = 64 := N_0
  have hlt : (i 0).val / 1024 < cfg0.N := by rw [hN]; omega
  obtain ⟨-, -, -, -, -, -, d0, d1⟩ := idx_facts ⟨(i 0).val / 1024, hlt⟩
  have d0' : win0_3.index ⟨(i 0).val / 1024, hlt⟩ (0 : Fin 2) = (i 0).val / 1024 := d0
  refine ⟨⟨(i 0).val / 1024, hlt⟩, flush0_3 _, ?_⟩
  rw [mem_blk]
  intro a
  match a with
  | ⟨0, _⟩ =>
    show win0_3.index ⟨(i 0).val / 1024, hlt⟩ (0 : Fin 2) * 1024 ≤ (i 0).val ∧ (i 0).val < win0_3.index ⟨(i 0).val / 1024, hlt⟩ (0 : Fin 2) * 1024 + 1024
    omega
  | ⟨1, _⟩ =>
    show win0_3.index ⟨(i 0).val / 1024, hlt⟩ (1 : Fin 2) * 1800 ≤ (i 1).val ∧ (i 1).val < win0_3.index ⟨(i 0).val / 1024, hlt⟩ (1 : Fin 2) * 1800 + 1800
    omega

/-- After the last point the output array is the specification. -/
theorem final (c : Dev nD) : (dats m 0 c).arrAt 3 cfg0.N = outSpec m c :=
  (dats m 0 c).arrAt_eq_of_cover 3 (outSpec m c) (fun t _ => flushed_eq m c t) cover

end Cert.KernelIdeal.Blocks

end
-- ==== Proof.KernelRun.lean ====
/-
  The idealized kernel's whole run, read as one function of its three arguments.

  Before the region the program re-views the [262144, 6, 3] input as [65536, 72] and the bias as a 1 × 1800 row; the
  region fills the [65536, 1800] output with the specification of those; after the region the output is re-viewed
  row-major as [11796480, 5, 2]. The bias row's entry (0, o) is the bias's entry o.
-/
import proofs.«120178_j60644938219640_1_alg».proof.Proof.Blocks

set_option maxRecDepth 16384

noncomputable section

open Idealize.ShloMosaic Idealize.ShloMosaic.TcCoe Idealize.SL.Sem Idealize.ShloMosaic.StableHlo
open Idealize.ShloMosaic.Pipeline (Dat)

namespace Cert.KernelIdeal.Whole

open Cert.KernelIdeal Cert.KernelIdeal.Gen Cert.KernelIdeal.Blocks Idealize.ShloMosaic.ValueIdx

variable (m : (ℓ : Loc nD τ sig) → Buf (Elt Ideal) ℓ) (ρ : Dev nD → PrngReg)

/-! ## The arrays the region finds -/

/-- The feature array is the input re-viewed row-major. -/
theorem V_flat (c : Dev nD) :
    (V m c main_v0 : S65536x72.Idx → EReal)
      = shapeCast S65536x72 (m ((c : Thread nD τ).loc main_arg0)) shapeCasts_S262144x6x3_S65536x72 := by
  show StableHlo.after hostOps0 (fun b => m (c, b)) (Proc.devRef .tc main_v0) = _
  after_results <;> rfl

/-- The bias row is the bias re-viewed. -/
theorem V_biasrow (c : Dev nD) :
    (V m c main_v1 : S1x1800.Idx → EReal)
      = shapeCast S1x1800 (m ((c : Thread nD τ).loc main_arg2)) shapeCasts_S1800_S1x1800 := by
  show StableHlo.after hostOps0 (fun b => m (c, b)) (Proc.devRef .tc main_v1) = _
  after_results <;> rfl

/-- Entry (0, o) of the bias row is entry o of the bias. -/
theorem biasrow_at (b : S1800.Idx → EReal) (o : Fin 1800) :
    shapeCast S1x1800 b shapeCasts_S1800_S1x1800 (ix2 0 o) = b (ix1 o) :=
  shapeCast_apply b shapeCasts_S1800_S1x1800 (ix2 0 o) (ix1 o)
    (by rw [Shape.rowMajor_val_one, Shape.rowMajor_val_two]; show o.val = 0 * 1800 + o.val; omega)

/-- The specification of the arrays the region finds is the specification of the arguments. -/
theorem outSpec_eq (c : Dev nD) :
    outSpec m c = Cert.Spec.reluAffine
      (shapeCast S65536x72 (m ((c : Thread nD τ).loc main_arg0)) shapeCasts_S262144x6x3_S65536x72)
      (m ((c : Thread nD τ).loc main_arg1)) (fun o => m ((c : Thread nD τ).loc main_arg2) (ix1 o)) := by
  unfold outSpec
  rw [V_flat, V_biasrow, V_main_arg1]
  exact congrArg _ (funext fun o => biasrow_at _ o)

/-! ## The result after the region -/

/-- The program's result: the output array after the region, re-viewed. -/
theorem result_eq (c : Dev nD) :
    Pipeline.afterTail₀ cfgs (dats m) 0 (V0 m) [hostOps1] c main_v3
      = shapeCast S11796480x5x2 ((dats m 0 c).arrAt 3 cfg0.N) shapeCasts_S65536x1800_S11796480x5x2 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2)
      = (dats m 0 c).arrAt 3 cfg0.N := Pipeline.withArrays_arr spec0 launch0.win.arr_inj c _ _ 3
  rw [e]
  rfl

/-! ## The run -/

/-- Every weakly fair execution of the idealized kernel terminates with its result at the specification of the
    arguments, re-viewed row-major, and the arguments unchanged. -/
theorem run : θ_run defs (onTc (τ := τ) (main (F := Ideal))) ⟨m, fun _ => 0, ρ⟩ fun r => ∀ c : Dev nD,
      r.2.mem ((c.tc : Thread nD τ).loc main_v3)
        = shapeCast S11796480x5x2 (Cert.Spec.reluAffine
            (shapeCast S65536x72 (m ((c.tc : Thread nD τ).loc main_arg0)) shapeCasts_S262144x6x3_S65536x72)
            (m ((c.tc : Thread nD τ).loc main_arg1)) (fun o => m ((c.tc : Thread nD τ).loc main_arg2) (ix1 o)))
          shapeCasts_S65536x1800_S11796480x5x2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans
        ((result_eq m c).trans (by rw [final, outSpec_eq])),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Whole

end
-- ==== Proof.lean ====
/-
  A ReLU of an affine map, row by row: four consecutive [6, 3] rows of the input, read row-major, are 72 features; the
  kernel and the reference both compute, for each of the 65536 feature rows r and each of the 1800 outputs o,

      max ( ∑ k < 72, flat (r, k) · W (o, k) + b o , 0 ),

  and re-view the [65536, 1800] result row-major as [11796480, 5, 2].

  The kernel walks the feature rows in 64 blocks of 1024, narrows features and weights to bf16 before the matrix unit
  (no change over the extended reals), accumulates into zero, adds the bias row and cuts off at zero. The reference
  contracts the whole feature array with the weights in one product, spreads the bias over the rows, adds and takes the
  maximum with a zero splat. Both are the same finite sum term by term, so the equality holds at every extended-real
  input and the inputs' finiteness is not used.

  The idealization rewrote nothing, so there is nothing to preserve. The three frames are the generated ones (the
  reference's is its run with the result dropped).
-/
import proofs.«120178_j60644938219640_1_alg».proof.Defs
import proofs.«120178_j60644938219640_1_alg».proof.Proof.Gen.Kernel
import proofs.«120178_j60644938219640_1_alg».proof.Proof.Gen.Kernel.Skeleton
import proofs.«120178_j60644938219640_1_alg».proof.Proof.Gen.Kernel.Launch
import proofs.«120178_j60644938219640_1_alg».proof.Proof.Gen.Kernel.Points
import proofs.«120178_j60644938219640_1_alg».proof.Proof.Gen.Kernel.Frame
import proofs.«120178_j60644938219640_1_alg».proof.Proof.Gen.KernelIdeal
import proofs.«120178_j60644938219640_1_alg».proof.Proof.Gen.KernelIdeal.Skeleton
import proofs.«120178_j60644938219640_1_alg».proof.Proof.Gen.KernelIdeal.Launch
import proofs.«120178_j60644938219640_1_alg».proof.Proof.Gen.KernelIdeal.Points
import proofs.«120178_j60644938219640_1_alg».proof.Proof.Gen.KernelIdeal.Frame
import proofs.«120178_j60644938219640_1_alg».proof.Proof.Gen.ReferenceIdeal
import proofs.«120178_j60644938219640_1_alg».proof.Proof.Gen.ReferenceIdeal.Run
import proofs.«120178_j60644938219640_1_alg».proof.Proof.Gen.ReferenceIdeal.Read
import proofs.«120178_j60644938219640_1_alg».proof.Proof.Gen.Pre_finite_inputs
import proofs.«120178_j60644938219640_1_alg».proof.Proof.RefStage
import proofs.«120178_j60644938219640_1_alg».proof.Proof.KernelRun
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both runs end at the specification of the (agreeing) arguments, re-viewed row-major. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq]
  unfold Cert.ReferenceIdeal.Read.val_main_v6
  rw [Cert.ReferenceIdeal.RefValue.relu_stage, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
